-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x12 : S_.BroadcastsInDim S768x12 (![] : Fin 0 → Fin S768x12.rank)
  reducesTo_S768x12_S_d0_1 : S768x12.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x512x768 .f32) (main_arg1 : FVec F S768x12 .f32) (main_arg2 : FVec F S768x768 .f32) (main_arg3 : FVec F S768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x12 .f32 := Host.absf main_arg1
  let main_cst_0 : FVec F S_ .f32 := constant S_ .f32 0x7F800000#32
  let main_v5 : FVec F S768x12 .f32 := broadcastInDim S768x12 ![] bcast_S_S768x12 main_cst_0
  let main_v6 : IVec S768x12 1 := cmpf .olt main_v4 main_v5
  let main_c_1 : IVec S_ 1 := constantI S_ 1 1#1
  let main_v7 : IVec S_ 1 := (fun x v => Host.reduce IntOp.andi x v reducesTo_S768x12_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S4096x768 : Shape := ⟨2, ![4096, 768]⟩
abbrev S12x768 : Shape := ⟨2, ![12, 768]⟩
abbrev S1x768 : Shape := ⟨2, ![1, 768]⟩
abbrev S4096x12x768 : Shape := ⟨3, ![4096, 12, 768]⟩
abbrev S256x768 : Shape := ⟨2, ![256, 768]⟩
abbrev S256x12x768 : Shape := ⟨3, ![256, 12, 768]⟩
abbrev S256x1x768 : Shape := ⟨3, ![256, 1, 768]⟩
abbrev S8x512x12x768 : Shape := ⟨4, ![8, 512, 12, 768]⟩

abbrev nBuf : Space → Nat
  | .hbm => 11
  | .vmem => 7
  | .smem => 0
  | _ => 0

abbrev bufTy : (tb : Table) → Fin (tcTables nBuf tb) → BufTy
  | .hbm, ⟨0, _⟩ => ⟨S8x512x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S4096x768, .f32⟩
  | .hbm, ⟨5, _⟩ => ⟨S12x768, .f32⟩
  | .hbm, ⟨6, _⟩ => ⟨S768x768, .f32⟩
  | .hbm, ⟨7, _⟩ => ⟨S768x768, .bf16⟩
  | .hbm, ⟨8, _⟩ => ⟨S1x768, .f32⟩
  | .hbm, ⟨9, _⟩ => ⟨S4096x12x768, .f32⟩
  | .hbm, ⟨10, _⟩ => ⟨S8x512x12x768, .f32⟩
  | .local _ .vmem, ⟨0, _⟩ => ⟨S256x768, .f32⟩
  | .local _ .vmem, ⟨1, _⟩ => ⟨S256x768, .f32⟩
  | .local _ .vmem, ⟨2, _⟩ => ⟨S12x768, .f32⟩
  | .local _ .vmem, ⟨3, _⟩ => ⟨S768x768, .bf16⟩
  | .local _ .vmem, ⟨4, _⟩ => ⟨S1x768, .f32⟩
  | .local _ .vmem, ⟨5, _⟩ => ⟨S256x12x768, .f32⟩
  | .local _ .vmem, ⟨6, _⟩ => ⟨S256x12x768, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x12x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x512x768_S4096x768 : S8x512x768.ShapeCasts S4096x768
  transposes_S768x12_S12x768_1_0 : S768x12.Transposes [1, 0] S12x768
  transposes_S768x768_S768x768_1_0 : S768x768.Transposes [1, 0] S768x768
  bitsLt_bf16_f32 : FTy.bits .bf16 < FTy.bits .f32
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S12x768_S12x768_0_0 : ∀ a, (![0, 0] : Fin 2 → Nat) a + S12x768.size a ≤ S12x768.size a
  h_S12x768 : 0 < S12x768.numel
  shapeCasts_S12x768_S12x768 : S12x768.ShapeCasts S12x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S12x768_o0_0_S1x768 : S12x768.Slices ![0, 0] S1x768
  shapeCasts_S1x768_S768 : S1x768.ShapeCasts S768
  broadcasts_S1x768_S256x768 : S1x768.Broadcasts S256x768
  inb_S256x12x768_S256x1x768_0_0_0 : ∀ a, (![0, 0, 0] : Fin 3 → Nat) a + S256x1x768.size a ≤ S256x12x768.size a
  h_S256x1x768 : 0 < S256x1x768.numel
  shapeCasts_S256x1x768_S256x768 : S256x1x768.ShapeCasts S256x768
  shapeCasts_S256x768_S256x1x768 : S256x768.ShapeCasts S256x1x768
  slices_S12x768_o1_0_S1x768 : S12x768.Slices ![1, 0] S1x768
  inb_S256x12x768_S256x1x768_0_1_0 : ∀ a, (![0, 1, 0] : Fin 3 → Nat) a + S256x1x768.size a ≤ S256x12x768.size a
  slices_S12x768_o2_0_S1x768 : S12x768.Slices ![2, 0] S1x768
  inb_S256x12x768_S256x1x768_0_2_0 : ∀ a, (![0, 2, 0] : Fin 3 → Nat) a + S256x1x768.size a ≤ S256x12x768.size a
  slices_S12x768_o3_0_S1x768 : S12x768.Slices ![3, 0] S1x768
  inb_S256x12x768_S256x1x768_0_3_0 : ∀ a, (![0, 3, 0] : Fin 3 → Nat) a + S256x1x768.size a ≤ S256x12x768.size a
  slices_S12x768_o4_0_S1x768 : S12x768.Slices ![4, 0] S1x768
  inb_S256x12x768_S256x1x768_0_4_0 : ∀ a, (![0, 4, 0] : Fin 3 → Nat) a + S256x1x768.size a ≤ S256x12x768.size a
  slices_S12x768_o5_0_S1x768 : S12x768.Slices ![5, 0] S1x768
  inb_S256x12x768_S256x1x768_0_5_0 : ∀ a, (![0, 5, 0] : Fin 3 → Nat) a + S256x1x768.size a ≤ S256x12x768.size a
  slices_S12x768_o6_0_S1x768 : S12x768.Slices ![6, 0] S1x768
  inb_S256x12x768_S256x1x768_0_6_0 : ∀ a, (![0, 6, 0] : Fin 3 → Nat) a + S256x1x768.size a ≤ S256x12x768.size a
  slices_S12x768_o7_0_S1x768 : S12x768.Slices ![7, 0] S1x768
  inb_S256x12x768_S256x1x768_0_7_0 : ∀ a, (![0, 7, 0] : Fin 3 → Nat) a + S256x1x768.size a ≤ S256x12x768.size a
  slices_S12x768_o8_0_S1x768 : S12x768.Slices ![8, 0] S1x768
  inb_S256x12x768_S256x1x768_0_8_0 : ∀ a, (![0, 8, 0] : Fin 3 → Nat) a + S256x1x768.size a ≤ S256x12x768.size a
  slices_S12x768_o9_0_S1x768 : S12x768.Slices ![9, 0] S1x768
  inb_S256x12x768_S256x1x768_0_9_0 : ∀ a, (![0, 9, 0] : Fin 3 → Nat) a + S256x1x768.size a ≤ S256x12x768.size a
  slices_S12x768_o10_0_S1x768 : S12x768.Slices ![10, 0] S1x768
  inb_S256x12x768_S256x1x768_0_10_0 : ∀ a, (![0, 10, 0] : Fin 3 → Nat) a + S256x1x768.size a ≤ S256x12x768.size a
  slices_S12x768_o11_0_S1x768 : S12x768.Slices ![11, 0] S1x768
  inb_S256x12x768_S256x1x768_0_11_0 : ∀ a, (![0, 11, 0] : Fin 3 → Nat) a + S256x1x768.size a ≤ S256x12x768.size a
  shapeCasts_S4096x12x768_S8x512x12x768 : S4096x12x768.ShapeCasts S8x512x12x768
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S4096x768.size a
  hwx0_0 : ∀ i : grid0.Coords, EltTy.bits .f32 = 32 ∨ (Rect.block (s := S4096x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x768.size a ≤ S12x768.size a
  hwx0_1 : ∀ i : grid0.Coords, EltTy.bits .f32 = 32 ∨ (Rect.block (s := S12x768) S12x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x12x768.size a ≤ S4096x12x768.size a
  hwx0_4 : ∀ i : grid0.Coords, EltTy.bits .f32 = 32 ∨ (Rect.block (s := S4096x12x768) S256x12x768.size (cc0_transform_4 i) (hinb0_4 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x12x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S8x512x1x768 : Shape := ⟨4, ![8, 512, 1, 768]⟩
abbrev S12x768 : Shape := ⟨2, ![12, 768]⟩
abbrev S1x1x12x768 : Shape := ⟨4, ![1, 1, 12, 768]⟩
abbrev S8x512x12x768 : Shape := ⟨4, ![8, 512, 12, 768]⟩
abbrev S1x1x1x768 : Shape := ⟨4, ![1, 1, 1, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S8x512x1x768, .f32⟩
  | .hbm, ⟨5, _⟩ => ⟨S12x768, .f32⟩
  | .hbm, ⟨6, _⟩ => ⟨S1x1x12x768, .f32⟩
  | .hbm, ⟨7, _⟩ => ⟨S8x512x12x768, .f32⟩
  | .hbm, ⟨8, _⟩ => ⟨S8x512x12x768, .f32⟩
  | .hbm, ⟨9, _⟩ => ⟨S8x512x12x768, .f32⟩
  | .hbm, ⟨10, _⟩ => ⟨S8x512x12x768, .f32⟩
  | .hbm, ⟨11, _⟩ => ⟨S1x1x1x768, .f32⟩
  | .hbm, ⟨12, _⟩ => ⟨S8x512x12x768, .f32⟩
  | .hbm, ⟨13, _⟩ => ⟨S8x512x12x768, .f32⟩
  | .hbm, ⟨14, _⟩ => ⟨S_, .f32⟩
  | .hbm, ⟨15, _⟩ => ⟨S8x512x12x768, .f32⟩
  | .hbm, ⟨16, _⟩ => ⟨S8x512x12x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S8x512x768_S8x512x1x768_0_1_3 : S8x512x768.BroadcastsInDim S8x512x1x768 (![0, 1, 3] : Fin 3 → Fin S8x512x1x768.rank)
  transposes_S768x12_S12x768_1_0 : S768x12.Transposes [1, 0] S12x768
  bcast_S12x768_S1x1x12x768_2_3 : S12x768.BroadcastsInDim S1x1x12x768 (![2, 3] : Fin 2 → Fin S1x1x12x768.rank)
  bcast_S8x512x1x768_S8x512x12x768_0_1_2_3 : S8x512x1x768.BroadcastsInDim S8x512x12x768 (![0, 1, 2, 3] : Fin 4 → Fin S8x512x12x768.rank)
  bcast_S1x1x12x768_S8x512x12x768_0_1_2_3 : S1x1x12x768.BroadcastsInDim S8x512x12x768 (![0, 1, 2, 3] : Fin 4 → Fin S8x512x12x768.rank)
  bcast_S768_S1x1x1x768_3 : S768.BroadcastsInDim S1x1x1x768 (![3] : Fin 1 → Fin S1x1x1x768.rank)
  bcast_S1x1x1x768_S8x512x12x768_0_1_2_3 : S1x1x1x768.BroadcastsInDim S8x512x12x768 (![0, 1, 2, 3] : Fin 4 → Fin S8x512x12x768.rank)
  bcast_S_S8x512x12x768 : S_.BroadcastsInDim S8x512x12x768 (![] : Fin 0 → Fin S8x512x12x768.rank)
  dot_S8x512x12x768_S768x768_S8x512x12x768_3_1_012_0_n_n_wf : DotDims.WF S8x512x12x768 S768x768 S8x512x12x768 [3] [1] [0, 1, 2] [0] [] []

variable [Facts₀]

def dot_S8x512x12x768_S768x768_S8x512x12x768_3_1_012_0_n_n : DotDims S8x512x12x768 S768x768 S8x512x12x768 where
  lhsContracting := [3]
  rhsContracting := [1]
  lhsNonContracting := [0, 1, 2]
  rhsNonContracting := [0]
  lhsBatch := []
  rhsBatch := []
  wf := dot_S8x512x12x768_S768x768_S8x512x12x768_3_1_012_0_n_n_wf

class Facts : Prop extends Facts₀ where

variable [Facts]
-- ==== Proof.SpanRows.lean ====
/-
  The span-query layer as one function of its arrays, on the extended reals.

  Activations `x : [n, 768]`, a scale table `q : [12, 768]` (one row per span), weights `w : [768, 768]` laid out
  input axis first, a bias row `b : [1, 768]`. At row `r`, span `s`, feature `e` the layer is
      max (∑ k, (x[r,k] · q[s,k]) · w[k,e]  +  b[0,e]) 0.
  The same formula serves a 256-row block of the output and the whole 4096-row array: rows `r` of the output read only
  row `r` of `x`, and all of `q`, `w`, `b`. Over the arrays as the caller gives them — activations `[8, 512, 768]`,
  the scale table `[768, 12]` (span axis last), weights `[768, 768]` (output axis first), bias `[768]` — it is
      max (∑ k, (h[i,j,k] · q[k,s]) · W[e,k]  +  b[e]) 0      at (i, j, s, e),
  and the two are the same number once row `512 i + j` of the flattened activations is row `(i, j)`, the table and the
  weights are read transposed and the bias as its one row. No law of arithmetic is used: both sides are the same sum of the
  same products in the same order.
-/
import Idealize.ShloMosaic.PureOps.Ideal
import Idealize.ShloMosaic.Lib.ValueIdx

noncomputable section

namespace SpanQuery

open Idealize.ShloMosaic Idealize.ShloMosaic.ValueIdx

/-- The layer at row `r`, span `s`, feature `e` of arrays in the kernel's layout. -/
def spanAt {n : Nat} (x : (⟨2, ![n, 768]⟩ : Shape).Idx → EReal) (q : (⟨2, ![12, 768]⟩ : Shape).Idx → EReal)
    (w : (⟨2, ![768, 768]⟩ : Shape).Idx → EReal) (b : (⟨2, ![1, 768]⟩ : Shape).Idx → EReal)
    (r : Fin n) (s : Fin 12) (e : Fin 768) : EReal :=
  max ((∑ k : Fin 768, (x (ix2 r k) * q (ix2 s k)) * w (ix2 k e)) + b (ix2 (0 : Fin 1) e)) 0

/-- The layer over `n` rows as an `[n, 12, 768]` array. -/
def spanRows {n : Nat} (x : (⟨2, ![n, 768]⟩ : Shape).Idx → EReal) (q : (⟨2, ![12, 768]⟩ : Shape).Idx → EReal)
    (w : (⟨2, ![768, 768]⟩ : Shape).Idx → EReal) (b : (⟨2, ![1, 768]⟩ : Shape).Idx → EReal) :
    (⟨3, ![n, 12, 768]⟩ : Shape).Idx → EReal :=
  fun y => spanAt x q w b (y 0) (y 1) (y 2)

/-- The layer over the caller's arrays, as the `[8, 512, 12, 768]` result. -/
def layer (h : (⟨3, ![8, 512, 768]⟩ : Shape).Idx → EReal) (q : (⟨2, ![768, 12]⟩ : Shape).Idx → EReal)
    (W : (⟨2, ![768, 768]⟩ : Shape).Idx → EReal) (b : (⟨1, ![768]⟩ : Shape).Idx → EReal) :
    (⟨4, ![8, 512, 12, 768]⟩ : Shape).Idx → EReal :=
  fun i => max ((∑ k : Fin 768, (h (ix3 (i 0) (i 1) k) * q (ix2 k (i 2))) * W (ix2 (i 3) k)) + b (ix1 (i 3))) 0

/-- Two instances of the layer, over different row counts, agree at a pair of indices when their arrays agree on
    the entries the formula reads there. -/
theorem spanAt_congr {n N : Nat} (x : (⟨2, ![n, 768]⟩ : Shape).Idx → EReal) (X : (⟨2, ![N, 768]⟩ : Shape).Idx → EReal)
    (q q' : (⟨2, ![12, 768]⟩ : Shape).Idx → EReal) (w w' : (⟨2, ![768, 768]⟩ : Shape).Idx → EReal)
    (b b' : (⟨2, ![1, 768]⟩ : Shape).Idx → EReal) (r : Fin n) (R : Fin N) (s s' : Fin 12) (e e' : Fin 768)
    (hx : ∀ k, x (ix2 r k) = X (ix2 R k)) (hq : ∀ k, q (ix2 s k) = q' (ix2 s' k))
    (hw : ∀ k, w (ix2 k e) = w' (ix2 k e')) (hb : b (ix2 (0 : Fin 1) e) = b' (ix2 (0 : Fin 1) e')) :
    spanAt x q w b r s e = spanAt X q' w' b' R s' e' := by
  unfold spanAt
  rw [hb]
  refine congrArg (fun z => max (z + b' (ix2 (0 : Fin 1) e')) 0) (Finset.sum_congr rfl fun k _ => ?_)
  rw [hx k, hq k, hw k]

/-- The layer in the kernel's layout is the layer over the caller's arrays, when the kernel's arrays are the caller's
    read as the kernel lays them out: the activations' row is `(i, j)`, table and weights transposed, the bias its row. -/
theorem spanAt_eq_layer {n : Nat} (x : (⟨2, ![n, 768]⟩ : Shape).Idx → EReal) (q' : (⟨2, ![12, 768]⟩ : Shape).Idx → EReal)
    (w : (⟨2, ![768, 768]⟩ : Shape).Idx → EReal) (b' : (⟨2, ![1, 768]⟩ : Shape).Idx → EReal)
    (h : (⟨3, ![8, 512, 768]⟩ : Shape).Idx → EReal) (q : (⟨2, ![768, 12]⟩ : Shape).Idx → EReal)
    (W : (⟨2, ![768, 768]⟩ : Shape).Idx → EReal) (b : (⟨1, ![768]⟩ : Shape).Idx → EReal)
    (r : Fin n) (i : Fin 8) (j : Fin 512) (s : Fin 12) (e : Fin 768)
    (hx : ∀ k, x (ix2 r k) = h (ix3 i j k)) (hq : ∀ k, q' (ix2 s k) = q (ix2 k s))
    (hw : ∀ k, w (ix2 k e) = W (ix2 e k)) (hb : b' (ix2 (0 : Fin 1) e) = b (ix1 e)) :
    spanAt x q' w b' r s e = layer h q W b (ix4 i j s e) := by
  unfold spanAt layer
  rw [hb]
  refine congrArg (fun z => max (z + b (ix1 e)) 0) (Finset.sum_congr rfl fun k _ => ?_)
  rw [hx k, hq k, hw k]

end SpanQuery

end
-- ==== Proof.Tile.lean ====
/-
  One span's tile of the kernel's output block, at an index.

  For each of the twelve spans the body takes one row of the scale table (a `[1, 768]` slice of the `[12, 768]` block,
  flattened to `[768]` and back), repeats it down the 256 rows of the activations' block, multiplies elementwise, contracts
  the product's columns against the rows of the `[768, 768]` weight block, adds the bias row to every row, clamps at zero and
  stores the result as the `[256, 1, 768]` slab of that span. On the extended reals narrowing the product to bf16 changes
  nothing and the contraction into a zero accumulator is a plain sum over the shared axis, so the slab at `(p, 0, e)` is
      max (∑ k, (x[p,k] · row[0,k]) · w[k,e]  +  bias[0,e]) 0,
  and `row[0,k]` is the table's entry `(s, k)`.
-/
import proofs.«107297_j5995774345592_1_alg».proof.Proof.Gen.KernelIdeal.Skeleton
import proofs.«107297_j5995774345592_1_alg».proof.Proof.SpanRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SpanValue

open Cert.KernelIdeal Cert.KernelIdeal.Gen Idealize.ShloMosaic Idealize.ShloMosaic.TcCoe Idealize.ShloMosaic.ValueIdx
open SpanQuery

variable {F : FTy → Type} [FloatOps F]

/-! ## The contraction's index maps

The product contracts the left operand's axis 1 with the right operand's axis 0; the left operand's axis 0 and the right
operand's axis 1 are the result's two axes. -/

theorem lhs_row (i : S256x768.Idx) (q : dot_S256x768_S768x768_S256x768_1_0_0_1_n_n.contr.Idx) :
    (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem lhs_col (i : S256x768.Idx) (q : dot_S256x768_S768x768_S256x768_1_0_0_1_n_n.contr.Idx) :
    (dot_S256x768_S768x768_S256x768_1_0_0_1_n_n.lhsIdx i q 1).val = (q ⟨0, by decide⟩).val :=
  dot_S256x768_S768x768_S256x768_1_0_0_1_n_n.lhsIdx_val_of_single rfl i q
theorem rhs_row (i : S256x768.Idx) (q : dot_S256x768_S768x768_S256x768_1_0_0_1_n_n.contr.Idx) :
    (dot_S256x768_S768x768_S256x768_1_0_0_1_n_n.rhsIdx i q 0).val = (q ⟨0, by decide⟩).val :=
  dot_S256x768_S768x768_S256x768_1_0_0_1_n_n.rhsIdx_val_of_single rfl i q
theorem rhs_col (i : S256x768.Idx) (q : dot_S256x768_S768x768_S256x768_1_0_0_1_n_n.contr.Idx) :
    (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The block product into a zero accumulator, at `(p, e)`: the sum over the shared axis of row `p` of the left operand
    against column `e` of the right. -/
theorem blockProduct_apply (l : FVec Ideal S256x768 .bf16) (r : FVec Ideal S768x768 .bf16) (p : Fin 256) (e : Fin 768) :
    matmul dot_S256x768_S768x768_S256x768_1_0_0_1_n_n none l r (constant (F := Ideal) S256x768 .f32 0x00000000#32) (ix2 p e)
      = ∑ k : Fin 768, l (ix2 p k) * r (ix2 k e) := by
  simp only [matmul]
  rw [Ideal.matmul_constant_zero_apply, ← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 p e) ((contrEquiv1 dot_S256x768_S768x768_S256x768_1_0_0_1_n_n 768 rfl rfl).symm k) = ix2 p k := funext fun a => Fin.ext (by
    match a with
    | ⟨0, _⟩ => exact lhs_row _ _
    | ⟨1, _⟩ => exact (lhs_col _ _).trans hk)
  have er : dot_S256x768_S768x768_S256x768_1_0_0_1_n_n.rhsIdx (ix2 p e) ((contrEquiv1 dot_S256x768_S768x768_S256x768_1_0_0_1_n_n 768 rfl rfl).symm k) = ix2 k e := funext fun a => Fin.ext (by
    match a with
    | ⟨0, _⟩ => exact (rhs_row _ _).trans hk
    | ⟨1, _⟩ => exact rhs_col _ _)
  rw [el, er]

/-! ## One row of the scale table, as the body spells it -/

/-- The `[1, 768]` slice of the table at offsets `o`, flattened and unflattened. -/
def scaleRow (o : Fin 2 → Nat) (h : S12x768.Slices o S1x768) (q : FVec F S12x768 .f32) : FVec F S1x768 .f32 :=
  shapeCast S1x768 (shapeCast S768 (extractStridedSlice S1x768 o q h) shapeCasts_S1x768_S768) shapeCasts_S768_S1x768

/-- It is row `s` of the table when the slice starts at row `s`, column 0. -/
theorem scaleRow_apply (n : Nat) (h : S12x768.Slices ![n, 0] S1x768) (q : FVec F S12x768 .f32) (s : Fin 12) (hs : s.val = n)
    (k : Fin 768) : scaleRow ![n, 0] h q (ix2 (0 : Fin 1) k) = q (ix2 s k) := by
  unfold scaleRow
  rw [shapeCast_a_1a_apply _ shapeCasts_S768_S1x768 (0 : Fin 1) k, shapeCast_1a_a_apply _ shapeCasts_S1x768_S768 k]
  exact slice2_axis0_apply n q h (0 : Fin 1) k s (by rw [hs]; rfl)

/-! ## The tile -/

/-- One span's slab: the activations' block scaled by a row, multiplied into the weight block, plus the bias row,
    clamped at zero, with the span axis put in. -/
def spanTile (x : FVec F S256x768 .f32) (row : FVec F S1x768 .f32) (w : FVec F S768x768 .bf16) (bias : FVec F S1x768 .f32) :
    FVec F S256x1x768 .f32 :=
  shapeCast S256x1x768
    (maximumf
      (addf (matmul dot_S256x768_S768x768_S256x768_1_0_0_1_n_n none (truncf .bf16 (mulf x (broadcastTo S256x768 row broadcasts_S1x768_S256x768)) bitsLt_bf16_f32) w
          (constant S256x768 .f32 0x00000000#32))
        (broadcastTo S256x768 bias broadcasts_S1x768_S256x768))
      (broadcast S256x768 (Scalar.ofBits .f32 0x00000000#32)))
    shapeCasts_S256x768_S256x1x768

/-- The slab at `(p, u, e)`, on the extended reals. -/
theorem spanTile_apply (x : FVec Ideal S256x768 .f32) (row : FVec Ideal S1x768 .f32) (w : FVec Ideal S768x768 .bf16)
    (bias : FVec Ideal S1x768 .f32) (p : Fin 256) (u : Fin 1) (e : Fin 768) :
    spanTile x row w bias (ix3 p u e)
      = max ((∑ k : Fin 768, (x (ix2 p k) * row (ix2 (0 : Fin 1) k)) * w (ix2 k e)) + bias (ix2 (0 : Fin 1) e)) 0 := by
  unfold spanTile
  rw [shapeCast_apply _ shapeCasts_S256x768_S256x1x768 (ix3 p u e) (ix2 p e) (by
    rw [Shape.rowMajor_val_two, Shape.rowMajor_val_three]
    show p.val * 768 + e.val = (p.val * 1 + u.val) * 768 + e.val
    have hu : u.val = 0 := by omega
    rw [hu]; omega)]
  rw [maximumf_apply, addf_apply, blockProduct_apply, broadcast_apply, broadcastTo_1b_ab_apply]
  have z : (Scalar.ofBits (F := Ideal) .f32 0x00000000#32 : EReal) = 0 := Ideal.ofBits_zero_f32
  rw [z]
  refine congrArg (fun t => max (t + bias (ix2 (0 : Fin 1) e)) 0) (Finset.sum_congr rfl fun k _ => ?_)
  rw [truncf_apply, mulf_apply, broadcastTo_1b_ab_apply]

end Cert.KernelIdeal.SpanValue

end
-- ==== Proof.Block.lean ====
/-
  The block the body leaves, as the layer on the input blocks.

  The body writes its `[256, 12, 768]` output block in twelve stores, the slab of span `s` through the rectangle at offsets
  `(0, s, 0)`. Every store's value is one span's tile of the same four loaded blocks — the activations' 256 rows, the whole
  scale table, the whole weight block, the bias row — with the table's row `s`. So each stored slab is the layer read through
  its own rectangle, the twelve rectangles tile the block, and the block is the layer over 256 rows.
-/
import proofs.«107297_j5995774345592_1_alg».proof.Proof.Gen.KernelIdeal.Frame
import proofs.«107297_j5995774345592_1_alg».proof.Proof.Tile

noncomputable section

namespace Cert.KernelIdeal.SpanValue

open Cert.KernelIdeal Cert.KernelIdeal.Gen Idealize.ShloMosaic Idealize.ShloMosaic.TcCoe Idealize.ShloMosaic.ValueIdx
open SpanQuery

variable {F : FTy → Type} [FloatOps F]

/-! ## The loads read the blocks -/

theorem zeros2 : (![0, 0] : Fin 2 → Nat) = fun _ => 0 := funext fun a => by fin_cases a <;> rfl

theorem in_x (x0 : Vec F S256x768 .f32) : k0_pay2 (View.ld x0 r0_0) = x0 := by
  unfold k0_pay2; rw [shapeCast_self]; exact View.ld_unit_zero (S := S256x768) zeros2 _ x0
theorem in_q (x1 : Vec F S12x768 .f32) : k0_pay3 (View.ld x1 r0_1) = x1 := by
  unfold k0_pay3; rw [shapeCast_self]; exact View.ld_unit_zero (S := S12x768) zeros2 _ x1
theorem in_w (x2 : Vec F S768x768 .bf16) : k0_pay4 (View.ld x2 r0_2) = x2 := by
  unfold k0_pay4; rw [shapeCast_self]; exact View.ld_unit_zero (S := S768x768) zeros2 _ x2
theorem in_b (x3 : Vec F S1x768 .f32) : k0_pay5 (View.ld x3 r0_3) = x3 := by
  unfold k0_pay5; rw [shapeCast_self]; exact View.ld_unit_zero (S := S1x768) zeros2 _ x3

/-! ## Every store's value is a tile

The twelve values differ only in which row of the table they take, and in whether the row was cut out before or inside the
stretch of the body that computes the value. -/

theorem store0_eq (v0 : Vec F S256x768 .f32) (v2 : Vec F S12x768 .f32) (v4 : Vec F S768x768 .bf16) (v6 : Vec F S1x768 .f32) :
    k0_pay6 v0 v2 v4 v6 = spanTile (k0_pay2 v0) (scaleRow ![0, 0] slices_S12x768_o0_0_S1x768 (k0_pay3 v2)) (k0_pay4 v4) (k0_pay5 v6) := rfl
theorem store1_eq (v0 : Vec F S256x768 .f32) (v2 : Vec F S12x768 .f32) (v4 : Vec F S768x768 .bf16) (v6 : Vec F S1x768 .f32) :
    k0_pay7 v0 v2 v4 v6 = spanTile (k0_pay2 v0) (scaleRow ![1, 0] slices_S12x768_o1_0_S1x768 (k0_pay3 v2)) (k0_pay4 v4) (k0_pay5 v6) := rfl
theorem row2_eq (v2 : Vec F S12x768 .f32) : k0_pay8 v2 = scaleRow ![2, 0] slices_S12x768_o2_0_S1x768 (k0_pay3 v2) := rfl
theorem store2_eq (v1 : FVec F S256x768 .f32) (v5 : FVec F S768x768 .bf16) (v7 : FVec F S1x768 .f32) (row : FVec F S1x768 .f32) :
    k0_pay9 v1 v5 v7 row = spanTile v1 row v5 v7 := rfl
theorem store3_eq (v1 : FVec F S256x768 .f32) (v3 : FVec F S12x768 .f32) (v5 : FVec F S768x768 .bf16) (v7 : FVec F S1x768 .f32) :
    k0_pay10 v1 v3 v5 v7 = spanTile v1 (scaleRow ![3, 0] slices_S12x768_o3_0_S1x768 v3) v5 v7 := rfl
theorem store4_eq (v1 : FVec F S256x768 .f32) (v3 : FVec F S12x768 .f32) (v5 : FVec F S768x768 .bf16) (v7 : FVec F S1x768 .f32) :
    k0_pay11 v1 v3 v5 v7 = spanTile v1 (scaleRow ![4, 0] slices_S12x768_o4_0_S1x768 v3) v5 v7 := rfl
theorem row5_eq (v3 : FVec F S12x768 .f32) : k0_pay12 v3 = scaleRow ![5, 0] slices_S12x768_o5_0_S1x768 v3 := rfl
theorem store5_eq (v1 : FVec F S256x768 .f32) (v5 : FVec F S768x768 .bf16) (v7 : FVec F S1x768 .f32) (row : FVec F S1x768 .f32) :
    k0_pay13 v1 v5 v7 row = spanTile v1 row v5 v7 := rfl
theorem store6_eq (v1 : FVec F S256x768 .f32) (v3 : FVec F S12x768 .f32) (v5 : FVec F S768x768 .bf16) (v7 : FVec F S1x768 .f32) :
    k0_pay14 v1 v3 v5 v7 = spanTile v1 (scaleRow ![6, 0] slices_S12x768_o6_0_S1x768 v3) v5 v7 := rfl
theorem store7_eq (v1 : FVec F S256x768 .f32) (v3 : FVec F S12x768 .f32) (v5 : FVec F S768x768 .bf16) (v7 : FVec F S1x768 .f32) :
    k0_pay15 v1 v3 v5 v7 = spanTile v1 (scaleRow ![7, 0] slices_S12x768_o7_0_S1x768 v3) v5 v7 := rfl
theorem row8_eq (v3 : FVec F S12x768 .f32) : k0_pay16 v3 = scaleRow ![8, 0] slices_S12x768_o8_0_S1x768 v3 := rfl
theorem store8_eq (v1 : FVec F S256x768 .f32) (v5 : FVec F S768x768 .bf16) (v7 : FVec F S1x768 .f32) (row : FVec F S1x768 .f32) :
    k0_pay17 v1 v5 v7 row = spanTile v1 row v5 v7 := rfl
theorem store9_eq (v1 : FVec F S256x768 .f32) (v3 : FVec F S12x768 .f32) (v5 : FVec F S768x768 .bf16) (v7 : FVec F S1x768 .f32) :
    k0_pay18 v1 v3 v5 v7 = spanTile v1 (scaleRow ![9, 0] slices_S12x768_o9_0_S1x768 v3) v5 v7 := rfl
theorem store10_eq (v1 : FVec F S256x768 .f32) (v3 : FVec F S12x768 .f32) (v5 : FVec F S768x768 .bf16) (v7 : FVec F S1x768 .f32) :
    k0_pay19 v1 v3 v5 v7 = spanTile v1 (scaleRow ![10, 0] slices_S12x768_o10_0_S1x768 v3) v5 v7 := rfl
theorem row11_eq (v3 : FVec F S12x768 .f32) : k0_pay20 v3 = scaleRow ![11, 0] slices_S12x768_o11_0_S1x768 v3 := rfl
theorem store11_eq (v1 : FVec F S256x768 .f32) (v5 : FVec F S768x768 .bf16) (v7 : FVec F S1x768 .f32) (row : FVec F S1x768 .f32) :
    k0_pay1 v1 v5 v7 row = spanTile v1 row v5 v7 := rfl

/-! ## A tile is the layer read through its slab's rectangle -/

/-- The tile with the table's row `s`, at a slab index, is the layer over the four blocks at the block index the slab's
    rectangle (offsets `(0, s, 0)`, unit strides) sends it to: rows and features keep their coordinate, the span is `s`. -/
theorem tile_through_slab (n : Nat) (s : Fin 12) (hs : s.val = n) (hsl : S12x768.Slices ![n, 0] S1x768)
    (inb : ∀ a, (![0, n, 0] : Fin 3 → Nat) a + S256x1x768.size a ≤ S256x12x768.size a)
    (x0 : FVec Ideal S256x768 .f32) (x1 : FVec Ideal S12x768 .f32) (x2 : FVec Ideal S768x768 .bf16) (x3 : FVec Ideal S1x768 .f32)
    (x : S256x1x768.Idx) :
    spanTile x0 (scaleRow ![n, 0] hsl x1) x2 x3 x
      = spanRows x0 x1 x2 x3 ((Rect.unit (s := S256x12x768) ![0, n, 0] S256x1x768.size inb).emb x) := by
  obtain ⟨p, u, e, rfl⟩ : ∃ (p : Fin 256) (u : Fin 1) (e : Fin 768), x = ix3 p u e := ⟨x 0, x 1, x 2, eq_ix3 x⟩
  have hy : (Rect.unit (s := S256x12x768) ![0, n, 0] S256x1x768.size inb).emb (ix3 p u e) = ix3 p s e :=
    funext fun a => Fin.ext (by
      match a with
      | ⟨0, _⟩ => show 0 + 1 * p.val = p.val; omega
      | ⟨1, _⟩ => show n + 1 * u.val = s.val; omega
      | ⟨2, _⟩ => show 0 + 1 * e.val = e.val; omega)
  rw [hy, spanTile_apply]
  show _ = spanAt x0 x1 x2 x3 p s e
  unfold spanAt
  refine congrArg (fun t => max (t + x3 (ix2 (0 : Fin 1) e)) 0) (Finset.sum_congr rfl fun k _ => ?_)
  rw [scaleRow_apply n hsl x1 s hs k]

/-! ## The block -/

/-- What the body leaves in the output's staging buffer is the layer over 256 rows, of the four input blocks. -/
theorem block_eq (x0 : Vec Ideal S256x768 .f32) (x1 : Vec Ideal S12x768 .f32) (x2 : Vec Ideal S768x768 .bf16) (x3 : Vec Ideal S1x768 .f32) :
    out0_4 x0 x1 x2 x3 = spanRows x0 x1 x2 x3 := by
  funext y
  unfold out0_4
  simp only [store0_eq, store1_eq, row2_eq, store2_eq, store3_eq, store4_eq, row5_eq, store5_eq, store6_eq, store7_eq,
    row8_eq, store8_eq, store9_eq, store10_eq, row11_eq, store11_eq, in_x, in_q, in_w, in_b]
  refine View.canon_apply_of_pieces (Val := Elt Ideal) (S := S256x12x768) (e := .f32) (spanRows x0 x1 x2 x3) _ ?_ y (cover0_4 _ _ _ _ _ _ _ _ _ _ _ _ y)
  intro p hp x
  simp only [List.mem_cons, List.mem_nil_iff, or_false] at hp
  rcases hp with rfl | rfl | rfl | rfl | rfl | rfl | rfl | rfl | rfl | rfl | rfl | rfl
  · exact tile_through_slab 11 11 rfl slices_S12x768_o11_0_S1x768 inb_S256x12x768_S256x1x768_0_11_0 x0 x1 x2 x3 x
  · exact tile_through_slab 10 10 rfl slices_S12x768_o10_0_S1x768 inb_S256x12x768_S256x1x768_0_10_0 x0 x1 x2 x3 x
  · exact tile_through_slab 9 9 rfl slices_S12x768_o9_0_S1x768 inb_S256x12x768_S256x1x768_0_9_0 x0 x1 x2 x3 x
  · exact tile_through_slab 8 8 rfl slices_S12x768_o8_0_S1x768 inb_S256x12x768_S256x1x768_0_8_0 x0 x1 x2 x3 x
  · exact tile_through_slab 7 7 rfl slices_S12x768_o7_0_S1x768 inb_S256x12x768_S256x1x768_0_7_0 x0 x1 x2 x3 x
  · exact tile_through_slab 6 6 rfl slices_S12x768_o6_0_S1x768 inb_S256x12x768_S256x1x768_0_6_0 x0 x1 x2 x3 x
  · exact tile_through_slab 5 5 rfl slices_S12x768_o5_0_S1x768 inb_S256x12x768_S256x1x768_0_5_0 x0 x1 x2 x3 x
  · exact tile_through_slab 4 4 rfl slices_S12x768_o4_0_S1x768 inb_S256x12x768_S256x1x768_0_4_0 x0 x1 x2 x3 x
  · exact tile_through_slab 3 3 rfl slices_S12x768_o3_0_S1x768 inb_S256x12x768_S256x1x768_0_3_0 x0 x1 x2 x3 x
  · exact tile_through_slab 2 2 rfl slices_S12x768_o2_0_S1x768 inb_S256x12x768_S256x1x768_0_2_0 x0 x1 x2 x3 x
  · exact tile_through_slab 1 1 rfl slices_S12x768_o1_0_S1x768 inb_S256x12x768_S256x1x768_0_1_0 x0 x1 x2 x3 x
  · exact tile_through_slab 0 0 rfl slices_S12x768_o0_0_S1x768 inb_S256x12x768_S256x1x768_0_0_0 x0 x1 x2 x3 x

end Cert.KernelIdeal.SpanValue

end
-- ==== Proof.HostSide.lean ====
/-
  The arrays the region finds, at an index.

  Before the region the program flattens the activations' two leading axes (row `512 i + j` of the `[4096, 768]` array is
  row `(i, j)` of the `[8, 512, 768]` one), transposes the scale table (entry `(s, k)` is the caller's `(k, s)`), transposes
  the weights and narrows them to bf16 — the identity on the extended reals — (entry `(k, e)` is the caller's `(e, k)`), and
  views the bias as one row (entry `(0, e)` is the caller's `e`).
-/
import proofs.«107297_j5995774345592_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.SpanValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The activations as the region finds them: the caller's, flattened. -/
theorem acts_eq (c : Dev nD) :
    (V m c main_v0 : S4096x768.Idx → EReal)
      = shapeCast S4096x768 (m ((c : Thread nD τ).loc main_arg0)) shapeCasts_S8x512x768_S4096x768 := by
  show StableHlo.after hostOps0 (fun b => m (c, b)) (Proc.devRef .tc main_v0) = _
  after_results; rfl

/-- The scale table as the region finds it: the caller's, transposed. -/
theorem table_eq (c : Dev nD) :
    (V m c main_v1 : S12x768.Idx → EReal)
      = transpose S12x768 [1, 0] (m ((c : Thread nD τ).loc main_arg1)) transposes_S768x12_S12x768_1_0 := by
  show StableHlo.after hostOps0 (fun b => m (c, b)) (Proc.devRef .tc main_v1) = _
  after_results

/-- The weights as the region finds them: the caller's, transposed and narrowed. -/
theorem weights_eq (c : Dev nD) :
    (V m c main_v3 : S768x768.Idx → EReal)
      = truncf (F := Ideal) .bf16 (transpose S768x768 [1, 0] (m ((c : Thread nD τ).loc main_arg2)) transposes_S768x768_S768x768_1_0)
          bitsLt_bf16_f32 := by
  show StableHlo.after hostOps0 (fun b => m (c, b)) (Proc.devRef .tc main_v3) = _
  after_results

/-- The bias as the region finds it: the caller's, as one row. -/
theorem bias_eq (c : Dev nD) :
    (V m c main_v4 : S1x768.Idx → EReal)
      = shapeCast S1x768 (m ((c : Thread nD τ).loc main_arg3)) shapeCasts_S768_S1x768 := by
  show StableHlo.after hostOps0 (fun b => m (c, b)) (Proc.devRef .tc main_v4) = _
  after_results; rfl

/-! ## At an index -/

theorem acts_apply (c : Dev nD) (i : Fin 8) (j : Fin 512) (k : Fin 768) (r : Fin 4096) (hr : r.val = i.val * 512 + j.val) :
    (V m c main_v0 : S4096x768.Idx → EReal) (ix2 r k) = m ((c : Thread nD τ).loc main_arg0) (ix3 i j k) := by
  rw [acts_eq]
  exact shapeCast_apply _ shapeCasts_S8x512x768_S4096x768 (ix2 r k) (ix3 i j k) (by
    rw [Shape.rowMajor_val_three, Shape.rowMajor_val_two]
    show (i.val * 512 + j.val) * 768 + k.val = r.val * 768 + k.val
    rw [hr])

theorem table_apply (c : Dev nD) (s : Fin 12) (k : Fin 768) :
    (V m c main_v1 : S12x768.Idx → EReal) (ix2 s k) = m ((c : Thread nD τ).loc main_arg1) (ix2 k s) := by
  rw [table_eq]
  exact transpose_ix2_apply _ transposes_S768x12_S12x768_1_0 s k

theorem weights_apply (c : Dev nD) (k : Fin 768) (e : Fin 768) :
    (V m c main_v3 : S768x768.Idx → EReal) (ix2 k e) = m ((c : Thread nD τ).loc main_arg2) (ix2 e k) := by
  rw [weights_eq, truncf_apply]
  exact transpose_ix2_apply _ transposes_S768x768_S768x768_1_0 k e

theorem bias_apply (c : Dev nD) (e : Fin 768) :
    (V m c main_v4 : S1x768.Idx → EReal) (ix2 (0 : Fin 1) e) = m ((c : Thread nD τ).loc main_arg3) (ix1 e) := by
  rw [bias_eq]
  exact shapeCast_a_1a_apply _ shapeCasts_S768_S1x768 (0 : Fin 1) e

end Cert.KernelIdeal.SpanValue

end
-- ==== Proof.Array.lean ====
/-
  From the blocks to the array, and from the array to the result.

  Grid point `t` of sixteen handles rows `256 t … 256 t + 255`: it fetches those rows of the flattened activations, the whole
  scale table, weight block and bias row, and writes back rows `256 t …` of the `[4096, 12, 768]` output, all twelve spans and
  all features. What it writes back is the layer over its 256 rows, which is the layer over all 4096 rows read through its
  block, because row `r` of the layer reads only row `r` of the activations. Row `r` lies in the block of point `r / 256`, so
  the blocks cover the output and the array after the region is the layer over 4096 rows. The program then splits the
  leading axis into `(8, 512)`: entry `(i, j, s, e)` of the result is entry `(512 i + j, s, e)` of the array, and with the
  arrays the region found read back to the caller's (flattened, transposed, one row) that is the layer over the caller's arrays.
-/
import proofs.«107297_j5995774345592_1_alg».proof.Proof.Block
import proofs.«107297_j5995774345592_1_alg».proof.Proof.HostSide

noncomputable section

namespace Cert.KernelIdeal.SpanValue

open Cert.KernelIdeal Cert.KernelIdeal.Gen Idealize.ShloMosaic Idealize.ShloMosaic.TcCoe Idealize.ShloMosaic.ValueIdx
open Idealize.SL.Sem
open Idealize.ShloMosaic.Pipeline (Dat)
open SpanQuery

variable (m : (ℓ : Loc nD τ sig) → Buf (Elt Ideal) ℓ)

/-! ## Names of literal type for the arrays and their blocks -/

/-- The four arrays the region reads, as it finds them. -/
abbrev acts (c : Dev nD) : S4096x768.Idx → EReal := V m c main_v0
abbrev table (c : Dev nD) : S12x768.Idx → EReal := V m c main_v1
abbrev weights (c : Dev nD) : S768x768.Idx → EReal := V m c main_v3
abbrev biasRow (c : Dev nD) : S1x768.Idx → EReal := V m c main_v4

/-- Their blocks at grid point `t`. -/
abbrev actsBlk (c : Dev nD) (t : Fin cfg0.N) : Vec Ideal S256x768 .f32 := iblk m c 0 t
abbrev tableBlk (c : Dev nD) (t : Fin cfg0.N) : Vec Ideal S12x768 .f32 := iblk m c 1 t
abbrev weightsBlk (c : Dev nD) (t : Fin cfg0.N) : Vec Ideal S768x768 .bf16 := iblk m c 2 t
abbrev biasBlk (c : Dev nD) (t : Fin cfg0.N) : Vec Ideal S1x768 .f32 := iblk m c 3 t

/-! ## Which block each point takes -/

/-- The index maps over the sixteen points: the activations' and the output's row block is the point's number, every other
    block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- What point `t` writes back is the layer over all 4096 rows, read through the point's block of the output. -/
theorem written_back (c : Dev nD) (t : Fin cfg0.N) :
    (dats m 0 c).flushed 4 t
      = ((cfg0.win 4).blk t).view.read (Elt Ideal) (spanRows (acts m c) (table m c) (weights m c) (biasRow m c)) := by
  show (cfg0.win 4).cut (grid0.coords t) ((dats m 0 c).after 4 t) = _
  rw [after0_4, block_eq (actsBlk m c t) (tableBlk m c t) (weightsBlk m c t) (biasBlk m c t)]
  obtain ⟨a0, a1, q0, q1, w0, w1, b0, b1, o0, o1, o2⟩ := block_indices t
  funext j
  show spanAt (actsBlk m c t) (tableBlk m c t) (weightsBlk m c t) (biasBlk m c t) (j 0) (j 1) (j 2)
      = spanAt (acts m c) (table m c) (weights m c) (biasRow m c) ((((cfg0.win 4).blk t).view.emb j) 0)
          ((((cfg0.win 4).blk t).view.emb j) 1) ((((cfg0.win 4).blk t).view.emb j) 2)
  refine spanAt_congr (actsBlk m c t) (acts m c) (tableBlk m c t) (table m c) (weightsBlk m c t) (weights m c)
    (biasBlk m c t) (biasRow m c) (j 0) ((((cfg0.win 4).blk t).view.emb j) 0) (j 1) ((((cfg0.win 4).blk t).view.emb j) 1)
    (j 2) ((((cfg0.win 4).blk t).view.emb j) 2) (fun k => ?_) (fun k => ?_) (fun k => ?_) ?_
  · show V m c main_v0 (((cfg0.win 0).blk t).view.emb (ix2 (j 0) k)) = V m c main_v0 (ix2 ((((cfg0.win 4).blk t).view.emb j) 0) k)
    refine congrArg (V m c main_v0) (funext fun a => Fin.ext ?_)
    match a with
    | ⟨0, _⟩ => show win0_0.index t (0 : Fin 2) * 256 + 1 * (j 0).val = win0_4.index t (0 : Fin 3) * 256 + 1 * (j 0).val; omega
    | ⟨1, _⟩ => show win0_0.index t (1 : Fin 2) * 768 + 1 * k.val = k.val; omega
  · show V m c main_v1 (((cfg0.win 1).blk t).view.emb (ix2 (j 1) k)) = V m c main_v1 (ix2 ((((cfg0.win 4).blk t).view.emb j) 1) k)
    refine congrArg (V m c main_v1) (funext fun a => Fin.ext ?_)
    match a with
    | ⟨0, _⟩ => show win0_1.index t (0 : Fin 2) * 12 + 1 * (j 1).val = win0_4.index t (1 : Fin 3) * 12 + 1 * (j 1).val; omega
    | ⟨1, _⟩ => show win0_1.index t (1 : Fin 2) * 768 + 1 * k.val = k.val; omega
  · show V m c main_v3 (((cfg0.win 2).blk t).view.emb (ix2 k (j 2))) = V m c main_v3 (ix2 k ((((cfg0.win 4).blk t).view.emb j) 2))
    refine congrArg (V m c main_v3) (funext fun a => Fin.ext ?_)
    match a with
    | ⟨0, _⟩ => show win0_2.index t (0 : Fin 2) * 768 + 1 * k.val = k.val; omega
    | ⟨1, _⟩ => show win0_2.index t (1 : Fin 2) * 768 + 1 * (j 2).val = win0_4.index t (2 : Fin 3) * 768 + 1 * (j 2).val; omega
  · show V m c main_v4 (((cfg0.win 3).blk t).view.emb (ix2 (0 : Fin 1) (j 2))) = V m c main_v4 (ix2 (0 : Fin 1) ((((cfg0.win 4).blk t).view.emb j) 2))
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 768 + 1 * (j 2).val = win0_4.index t (2 : Fin 3) * 768 + 1 * (j 2).val; omega

/-! ## The blocks cover the output -/

/-- An index of the output is in point `t`'s block iff each coordinate is in the block's range on its axis. -/
theorem mem_block (t : Fin cfg0.N) (i : S4096x12x768.Idx) :
    i ∈ ((cfg0.win 4).blk t).view.set ↔ ∀ a : Fin 3, win0_4.index t a * S256x12x768.size a ≤ (i a).val
      ∧ (i a).val < win0_4.index t a * S256x12x768.size a + S256x12x768.size a := by
  show i ∈ ((View.whole main_v5).slice (win0_4.rect t)).set ↔ _
  rw [View.set_slice_whole, Rect.mem_set_unit]
  exact Iff.rfl

/-- Row `r` of the output is written back by point `r / 256`. -/
theorem covered (i : S4096x12x768.Idx) :
    ∃ t : Fin cfg0.N, (cfg0.win 4).flush t = true ∧ i ∈ ((cfg0.win 4).blk t).view.set := by
  have h0 : (i 0).val < 4096 := (i 0).isLt
  have h1 : (i 1).val < 12 := (i 1).isLt
  have h2 : (i 2).val < 768 := (i 2).isLt
  have hN : cfg0.N = 16 := N_0
  let t : Fin cfg0.N := ⟨(i 0).val / 256, by rw [hN]; omega⟩
  have ht : t.val = (i 0).val / 256 := rfl
  obtain ⟨-, -, -, -, -, -, -, -, o0, o1, o2⟩ := block_indices t
  refine ⟨t, flush0_4 t, ?_⟩
  rw [mem_block]
  intro a
  match a with
  | ⟨0, _⟩ => show win0_4.index t (0 : Fin 3) * 256 ≤ (i 0).val ∧ (i 0).val < win0_4.index t (0 : Fin 3) * 256 + 256; omega
  | ⟨1, _⟩ => show win0_4.index t (1 : Fin 3) * 12 ≤ (i 1).val ∧ (i 1).val < win0_4.index t (1 : Fin 3) * 12 + 12; omega
  | ⟨2, _⟩ => show win0_4.index t (2 : Fin 3) * 768 ≤ (i 2).val ∧ (i 2).val < win0_4.index t (2 : Fin 3) * 768 + 768; omega

/-- The output array after the region is the layer over all 4096 rows, of the arrays the region found. -/
theorem array_eq (c : Dev nD) :
    (dats m 0 c).arrAt 4 cfg0.N = spanRows (acts m c) (table m c) (weights m c) (biasRow m c) :=
  (dats m 0 c).arrAt_eq_of_cover 4 (spanRows (acts m c) (table m c) (weights m c) (biasRow m c))
    (fun t _ => written_back m c t) covered

/-! ## The result -/

/-- The program's result, after the reshape that follows the region, is the layer over the caller's arrays. -/
theorem result_eq (c : Dev nD) :
    Pipeline.afterTail₀ cfgs (dats m) 0 (V0 m) [hostOps1] c main_v6
      = layer (m ((c : Thread nD τ).loc main_arg0)) (m ((c : Thread nD τ).loc main_arg1))
          (m ((c : Thread nD τ).loc main_arg2)) (m ((c : Thread nD τ).loc main_arg3)) := by
  have h : Pipeline.afterTail₀ cfgs (dats m) 0 (V0 m) [hostOps1] c main_v6
      = shapeCast S8x512x12x768 ((dats m 0 c).arrAt 4 cfg0.N) shapeCasts_S4096x12x768_S8x512x12x768 := by
    unfold Pipeline.afterTail₀
    show StableHlo.after hostOps1 _ (Proc.devRef .tc main_v6) = _
    after_results
    exact congrArg (fun A => shapeCast S8x512x12x768 A shapeCasts_S4096x12x768_S8x512x12x768)
      (Pipeline.withArrays_arr spec0 launch0.win.arr_inj c _ _ 4)
  rw [h, array_eq]
  funext i
  obtain ⟨a, b, s, e, rfl⟩ : ∃ (a : Fin 8) (b : Fin 512) (s : Fin 12) (e : Fin 768), i = ix4 a b s e :=
    ⟨i 0, i 1, i 2, i 3, eq_ix4 i⟩
  have ha : a.val < 8 := a.isLt
  have hb : b.val < 512 := b.isLt
  have hr : a.val * 512 + b.val < 4096 := by omega
  rw [shapeCast_apply _ shapeCasts_S4096x12x768_S8x512x12x768 (ix4 a b s e) (ix3 (⟨a.val * 512 + b.val, hr⟩ : Fin 4096) s e) (by
    rw [Shape.rowMajor_val_three, Shape.rowMajor_val_four]
    rfl)]
  show spanAt (acts m c) (table m c) (weights m c) (biasRow m c) (⟨a.val * 512 + b.val, hr⟩ : Fin 4096) s e = _
  exact spanAt_eq_layer (acts m c) (table m c) (weights m c) (biasRow m c) _ _ _ _ (⟨a.val * 512 + b.val, hr⟩ : Fin 4096) a b s e
    (fun k => acts_apply m c a b k _ rfl) (fun k => table_apply m c s k) (fun k => weights_apply m c k e) (bias_apply m c e)

end Cert.KernelIdeal.SpanValue

end
-- ==== Proof.RefSide.lean ====
/-
  The reference is the layer.

  The reference repeats the activations along a new span axis and the transposed scale table along the two leading axes,
  multiplies them (entry `(i, j, s, k)` is `h[i,j,k] · q[k,s]`), contracts the last axis against the weights' axis 1 (entry
  `(i, j, s, e)` is the sum over `k` of that product times `W[e,k]`), adds the bias repeated over the three leading axes and
  takes the maximum with zero. Read at an index, one operation at a time, that is the layer's formula term for term.
-/
import proofs.«107297_j5995774345592_1_alg».proof.Proof.Gen.ReferenceIdeal.Read
import proofs.«107297_j5995774345592_1_alg».proof.Proof.SpanRows

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx SpanQuery

/-- The reference's result, as a function of its four arguments, is the layer over them. -/
theorem reference_eq (x0 : (⟨S8x512x768, .f32⟩ : BufTy).Contents (Elt Ideal)) (x1 : (⟨S768x12, .f32⟩ : BufTy).Contents (Elt Ideal))
    (x2 : (⟨S768x768, .f32⟩ : BufTy).Contents (Elt Ideal)) (x3 : (⟨S768, .f32⟩ : BufTy).Contents (Elt Ideal)) :
    val_main_v10 (F := Ideal) x0 x1 x2 x3 = layer x0 x1 x2 x3 := by
  funext i
  -- which entries of the arguments the stages read, at `i` and a contraction index `k`
  have eh : ∀ k : Fin 768, idx_main_v0 (idx_main_v3 (lidx_main_v6 i k)) = ix3 (i 0) (i 1) k := fun k =>
    funext fun a => Fin.ext (by match a with | ⟨0, _⟩ => rfl | ⟨1, _⟩ => rfl | ⟨2, _⟩ => rfl)
  have eq : ∀ k : Fin 768, idx_main_v1 (idx_main_v2 (idx_main_v4 (lidx_main_v6 i k))) = ix2 k (i 2) := fun k =>
    funext fun a => Fin.ext (by match a with | ⟨0, _⟩ => rfl | ⟨1, _⟩ => rfl)
  have ew : ∀ k : Fin 768, ridx_main_v6 i k = ix2 (i 3) k := fun k =>
    funext fun a => Fin.ext (by match a with | ⟨0, _⟩ => rfl | ⟨1, _⟩ => rfl)
  have eb : idx_main_v7 (idx_main_v8 i) = ix1 (i 3) :=
    funext fun a => Fin.ext (by match a with | ⟨0, _⟩ => rfl)
  rw [val_main_v10_apply, val_main_v9_apply, val_main_v6_apply, val_main_v8_apply, val_main_v7_apply,
    val_main_call0_v0_apply, val_main_call0_cst_apply]
  simp only [val_main_v5_apply, val_main_v3_apply, val_main_v0_apply, val_main_v4_apply, val_main_v2_apply, val_main_v1_apply,
    eh, eq, ew, eb, Ideal.mulf_def, Ideal.addf_def, Ideal.maximumf_def, Ideal.ofBits_def, Ideal.ofBits_zero_f32]
  rfl

end Cert.ReferenceIdeal.RefValue

end
-- ==== Proof.lean ====
/-
  The kernel computes the span-query layer, and so does the reference.

  The claim is about three programs: the kernel as printed (word level), the kernel read on the extended reals, and the
  reference read on the extended reals. The kernel flattens the `[8, 512, 768]` activations to `[4096, 768]`, and for each
  block of 256 rows and each of the 12 spans scales the rows by that span's row of the (transposed) scale table, multiplies
  the result into the (transposed) weights, adds the bias and clamps at zero; the reference forms the same products by
  broadcasting and contracts them against the weights in one `dot_general`. On the extended reals both results are, at
  `(i, j, s, e)`,
      max (∑ k, (h[i,j,k] · q[k,s]) · W[e,k]  +  b[e]) 0
  — the same sum of the same products in the same order, so no law of arithmetic and no finiteness is used: the kernel's
  narrowing to bf16 is the identity there, its block product into a zero accumulator and the reference's contraction are
  both the plain sum, and tiling the rows changes nothing because a row of the result reads only its own row of the
  activations (`SpanRows.lean`; the kernel's side in `Tile.lean`, `Block.lean`, `HostSide.lean`, `Array.lean`; the reference's
  in `RefSide.lean`). The three frames are the generated ones; the idealization rewrote nothing.
-/
import proofs.«107297_j5995774345592_1_alg».proof.Defs
import proofs.«107297_j5995774345592_1_alg».proof.Proof.Gen.Kernel
import proofs.«107297_j5995774345592_1_alg».proof.Proof.Gen.Kernel.Skeleton
import proofs.«107297_j5995774345592_1_alg».proof.Proof.Gen.Kernel.Launch
import proofs.«107297_j5995774345592_1_alg».proof.Proof.Gen.Kernel.Points
import proofs.«107297_j5995774345592_1_alg».proof.Proof.Gen.Kernel.Frame
import proofs.«107297_j5995774345592_1_alg».proof.Proof.Gen.KernelIdeal
import proofs.«107297_j5995774345592_1_alg».proof.Proof.Gen.KernelIdeal.Skeleton
import proofs.«107297_j5995774345592_1_alg».proof.Proof.Gen.KernelIdeal.Launch
import proofs.«107297_j5995774345592_1_alg».proof.Proof.Gen.KernelIdeal.Points
import proofs.«107297_j5995774345592_1_alg».proof.Proof.Gen.KernelIdeal.Frame
import proofs.«107297_j5995774345592_1_alg».proof.Proof.Gen.ReferenceIdeal
import proofs.«107297_j5995774345592_1_alg».proof.Proof.Gen.Pre_finite_inputs
import proofs.«107297_j5995774345592_1_alg».proof.Proof.Gen.ReferenceIdeal.Run
import proofs.«107297_j5995774345592_1_alg».proof.Proof.Gen.ReferenceIdeal.Read
import proofs.«107297_j5995774345592_1_alg».proof.Proof.Array
import proofs.«107297_j5995774345592_1_alg».proof.Proof.RefSide
import Idealize.ShloMosaic.Adequacy
import Idealize.ShloMosaic.Init

noncomputable section

namespace Cert.Proof

open Idealize.ShloMosaic Idealize.ShloMosaic.TcCoe Idealize.SL.Sem SpanQuery

/-- The three programs run, fault-free, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen in
/-- The kernel on the extended reals ends with its result at the layer over its arguments, and the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v6)
            = layer (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (Cert.KernelIdeal.SpanValue.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- From memories that agree on the arguments both idealized programs end with the layer over those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.ReferenceIdeal.RefValue.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
